-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 75
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S1x800000, .i32⟩
  | .hbm, ⟨32, _⟩ => ⟨S800000, .i32⟩
  | .hbm, ⟨33, _⟩ => ⟨S1x800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S800000x1, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S1x800000, .i32⟩
  | .hbm, ⟨54, _⟩ => ⟨S800000, .i32⟩
  | .hbm, ⟨55, _⟩ => ⟨S1x800000, .i32⟩
  | .hbm, ⟨56, _⟩ => ⟨S800000, .i32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x1, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x64, .f32⟩
  | .hbm, ⟨74, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S1x800000, .i32⟩
  | .hbm, ⟨34, _⟩ => ⟨S800000, .i32⟩
  | .hbm, ⟨35, _⟩ => ⟨S1x800000, .i32⟩
  | .hbm, ⟨36, _⟩ => ⟨S800000, .i32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x1, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S1x800000, .i32⟩
  | .hbm, ⟨58, _⟩ => ⟨S800000, .i32⟩
  | .hbm, ⟨59, _⟩ => ⟨S1x800000, .i32⟩
  | .hbm, ⟨60, _⟩ => ⟨S800000, .i32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S800000x1, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_4 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.Affine.lean ====
/-
  An affine layer, read at an entry.

  For an M × K table X, a K × N table W and a one-row table b of N columns the layer's value is the M × N table whose
  entry (p, q) is  Σ_k X(p, k) · W(k, q) + b(0, q).

  Two programs' spellings of it are shown to be this table, over the extended reals:
    * a matrix unit's product into a zero accumulator of the operands narrowed to a shorter float format (a change of
      format is the identity on exact values), plus the bias row repeated down the rows;
    * the host's general dot product, plus the bias VECTOR laid out as a one-row table and then repeated down the rows.
  Only 0 + s = s and the re-indexing of the contraction are used: no law that needs finite summands.
-/
import Idealize.ShloMosaic.PureOps.Ideal.Laws
import Idealize.ShloMosaic.Lib.ValueIdx
import Idealize.ShloMosaic.Lib.Pipeline.Value
import proofs.«178420_j75557064671960_1_alg».proof.Proof.LibPlainDot
import proofs.«178420_j75557064671960_1_alg».proof.Proof.LibRowBroadcast
import proofs.«178420_j75557064671960_1_alg».proof.Proof.LibReshapeAsBroadcast

noncomputable section

namespace Cert.Affine

open Idealize.ShloMosaic Idealize.ShloMosaic.ValueIdx

variable {M K N : Nat}

/-- X · W + b with the bias a one-row table: entry (p, q) is Σ_k X(p, k) · W(k, q) + b(0, q). -/
def affine (X : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun i => (∑ k : Fin K, X (ix2 (i 0) k) * W (ix2 k (i 1))) + b (ix2 (0 : Fin 1) (i 1))

theorem affine_apply (X : (⟨2, ![M, K]⟩ : Shape).Idx → EReal) (W : (⟨2, ![K, N]⟩ : Shape).Idx → EReal)
    (b : (⟨2, ![1, N]⟩ : Shape).Idx → EReal) (p : Fin M) (q : Fin N) :
    affine X W b (ix2 p q) = (∑ k : Fin K, X (ix2 p k) * W (ix2 k q)) + b (ix2 (0 : Fin 1) q) := rfl

/-- The matrix unit's spelling: operands narrowed, product into the zero accumulator, bias row repeated. -/
theorem of_matmul {ψ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (x0 : FVec Ideal ⟨2, ![M, K]⟩ .f32) (x1 : FVec Ideal ⟨2, ![K, N]⟩ .f32) (x2 : FVec Ideal ⟨2, ![1, N]⟩ .f32)
    (h0 : (⟨2, ![M, K]⟩ : Shape).ShapeCasts ⟨2, ![M, K]⟩) (hb : ψ.bits < FTy.bits .f32)
    (h2 : (⟨2, ![1, N]⟩ : Shape).ShapeCasts ⟨2, ![1, N]⟩) (h3 : (⟨2, ![1, N]⟩ : Shape).Broadcasts ⟨2, ![M, N]⟩) :
    addf (matmul d prec (truncf ψ (shapeCast ⟨2, ![M, K]⟩ x0 h0) hb) (truncf ψ x1 hb) (constant (F := Ideal) ⟨2, ![M, N]⟩ .f32 0x00000000#32))
      (broadcastTo ⟨2, ![M, N]⟩ (shapeCast ⟨2, ![1, N]⟩ x2 h2) h3) = affine x0 x1 x2 := by
  funext j
  obtain ⟨p, q, rfl⟩ : ∃ (p : Fin M) (q : Fin N), j = ix2 p q := ⟨j 0, j 1, eq_ix2 j⟩
  rw [addf_apply, shapeCast_self, shapeCast_self, RowBroadcast.broadcastTo_row, affine_apply]
  refine congrArg (· + x2 (ix2 (0 : Fin 1) q)) ?_
  exact LibPlainDot.matmul_zero_apply d hlc hrc hln hrn hlb hrb prec _ _ p q

/-- A one-row table repeated down the rows by a broadcast along both axes, at entry (p, q): the row's entry (0, q). -/
theorem broadcastInDim_rows {α : Type} (y : (⟨2, ![1, N]⟩ : Shape).Idx → α)
    (h : (⟨2, ![1, N]⟩ : Shape).BroadcastsInDim ⟨2, ![M, N]⟩ (![0, 1] : Fin 2 → Fin 2)) (p : Fin M) (q : Fin N) :
    broadcastInDim ⟨2, ![M, N]⟩ ![0, 1] h y (ix2 p q) = y (ix2 (0 : Fin 1) q) :=
  broadcastInDim_apply ![0, 1] h y (ix2 p q) (ix2 (0 : Fin 1) q) (fun a => match a with
    | ⟨0, _⟩ => by
        show (0 : Nat) = if (1 : Nat) = 1 then 0 else _
        rw [if_pos rfl]
    | ⟨1, _⟩ => by
        show q.val = if N = 1 then 0 else q.val
        by_cases hc : N = 1
        · rw [if_pos hc]; have hk := q.isLt; omega
        · rw [if_neg hc])

/-- The host's spelling: the general dot product, plus the bias vector as a one-row table repeated down the rows. The
    one-row table is the same whether a broadcast along the column axis or a reshape made it. -/
theorem of_dotGeneral (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (X : FVec Ideal ⟨2, ![M, K]⟩ .f32) (W : FVec Ideal ⟨2, ![K, N]⟩ .f32) (b : FVec Ideal ⟨1, ![N]⟩ .f32)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (hs : (⟨1, ![N]⟩ : Shape).ShapeCasts ⟨2, ![1, N]⟩) :
    addf (Host.dotGeneral d prec X W) (broadcastInDim ⟨2, ![M, N]⟩ ![0, 1] hb2 (broadcastInDim ⟨2, ![1, N]⟩ ![1] hb1 b))
      = affine X W (shapeCast ⟨2, ![1, N]⟩ b hs) := by
  funext j
  obtain ⟨p, q, rfl⟩ : ∃ (p : Fin M) (q : Fin N), j = ix2 p q := ⟨j 0, j 1, eq_ix2 j⟩
  rw [addf_apply, broadcastInDim_rows, affine_apply, ReshapeAsBroadcast.shapeCast_row N b hs hb1]
  refine congrArg (· + broadcastInDim ⟨2, ![1, N]⟩ ![1] hb1 b (ix2 (0 : Fin 1) q)) ?_
  exact LibPlainDot.dotGeneral_apply d hlc hrc hln hrn hlb hrb prec .single X W p q

end Cert.Affine

end
-- ==== Proof.Region0.lean ====
/-
  Region 0 of the idealized kernel, read as a value: whatever the buffers hold when the region is entered, the array
  the region writes ends holding the affine layer X · W + b of the three arrays it reads.

  The grid has ten points; point t stages rows 5000 t … 5000 t + 4999 of X, all of W and the one-row table b, and writes
  back the same rows of the result. The body's stored value is the matrix unit's product of the narrowed operands into a
  zero accumulator plus the bias row repeated: at exact values the affine layer of the staged blocks. Row p of block t
  is row 5000 t + p of X, so what point t writes back is rows 5000 t … of the layer of the whole arrays; the ten blocks
  tile the result (row r lies in block r / 5000).
-/
import proofs.«178420_j75557064671960_1_alg».proof.Proof.KernelIdealFrameP
import proofs.«178420_j75557064671960_1_alg».proof.Proof.Affine
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them. -/
abbrev xin (c : Dev nD) : FVec Ideal S50000x128 .f32 := V c main_v16
abbrev wgt (c : Dev nD) : FVec Ideal S128x128 .f32 := V c main_arg3
abbrev bias (c : Dev nD) : FVec Ideal S1x128 .f32 := V c main_v17

/-- The stored value is the affine layer of the three loaded blocks. -/
theorem pay_eq (x0 : Vec Ideal S5000x128 .f32) (x1 : Vec Ideal S128x128 .f32) (x2 : Vec Ideal S1x128 .f32) :
    k0_pay1 x0 x1 x2 = Affine.affine x0 x1 x2 :=
  Affine.of_matmul dot_S5000x128_S128x128_S5000x128_1_0_0_1_n_n rfl rfl rfl rfl rfl rfl none x0 x1 x2 _ _ _ _

/-- The printed index maps over the grid: X's and the result's block index is (t, 0), W's and b's is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of X's block at point t is row 5000 t + p of X. -/
theorem blk_in (c : Dev nD) (t : Fin cfg0.N) (x : S5000x128.Idx) (k : S50000x128.Idx)
    (hk0 : (k 0).val = t.val * 5000 + (x 0).val) (hk1 : (k 1).val = (x 1).val) :
    (iblk0 V c 0 t : Vec Ideal S5000x128 .f32) x = xin V c k := by
  obtain ⟨e00, e01, -⟩ := idx_facts t
  unfold iblk0
  rw [View.read_apply]
  show V c main_v16 _ = V c main_v16 _
  congr 1
  funext a
  apply Fin.ext
  match a with
  | ⟨0, _⟩ => show win0_0.index t 0 * 5000 + 1 * (x 0).val = (k 0).val; rw [e00, hk0]; omega
  | ⟨1, _⟩ => show win0_0.index t 1 * 128 + 1 * (x 1).val = (k 1).val; rw [e01, hk1]; omega

/-- W's block at every point is W. -/
theorem blk_w (c : Dev nD) (t : Fin cfg0.N) (x : S128x128.Idx) :
    (iblk0 V c 1 t : Vec Ideal S128x128 .f32) x = wgt V c x := by
  obtain ⟨-, -, e10, e11, -⟩ := idx_facts t
  unfold iblk0
  rw [View.read_apply]
  show V c main_arg3 _ = V c main_arg3 _
  congr 1
  funext a
  apply Fin.ext
  match a with
  | ⟨0, _⟩ => show win0_1.index t 0 * 128 + 1 * (x 0).val = (x 0).val; rw [e10]; omega
  | ⟨1, _⟩ => show win0_1.index t 1 * 128 + 1 * (x 1).val = (x 1).val; rw [e11]; omega

/-- b's block at every point is b. -/
theorem blk_b (c : Dev nD) (t : Fin cfg0.N) (x : S1x128.Idx) :
    (iblk0 V c 2 t : Vec Ideal S1x128 .f32) x = bias V c x := by
  obtain ⟨-, -, -, -, e20, e21, -⟩ := idx_facts t
  unfold iblk0
  rw [View.read_apply]
  show V c main_v17 _ = V c main_v17 _
  congr 1
  funext a
  apply Fin.ext
  match a with
  | ⟨0, _⟩ => show win0_2.index t 0 * 1 + 1 * (x 0).val = (x 0).val; rw [e20]; omega
  | ⟨1, _⟩ => show win0_2.index t 1 * 128 + 1 * (x 1).val = (x 1).val; rw [e21]; omega

/-- The layer of the blocks at point t, at entry (p, q), is the layer of the whole arrays at entry (5000 t + p, q). -/
theorem block_affine (c : Dev nD) (t : Fin cfg0.N) (p : Fin 5000) (q : Fin 128) (P : Fin 50000) (hP : P.val = t.val * 5000 + p.val) :
    Affine.affine (iblk0 V c 0 t : Vec Ideal S5000x128 .f32) (iblk0 V c 1 t : Vec Ideal S128x128 .f32) (iblk0 V c 2 t : Vec Ideal S1x128 .f32) (ix2 p q)
      = Affine.affine (xin V c) (wgt V c) (bias V c) (ix2 P q) := by
  rw [Affine.affine_apply, Affine.affine_apply]
  congr 1
  · refine Finset.sum_congr rfl fun k _ => ?_
    rw [blk_in V c t (ix2 p k) (ix2 P k) hP rfl, blk_w V c t (ix2 k q)]
  · rw [blk_b V c t (ix2 (0 : Fin 1) q)]

/-- What point t writes back is block t of the layer of the whole arrays. -/
theorem flushed_eq (c : Dev nD) (t : Fin cfg0.N) :
    (dat0 V c).flushed 3 t = ((cfg0.win 3).blk t).view.read (Elt Ideal) (Affine.affine (xin V c) (wgt V c) (bias V c)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [pay_eq]
  obtain ⟨-, -, -, -, -, -, e30, e31⟩ := idx_facts t
  have ht : t.val < 10 := lt_of_lt_of_eq t.isLt (show cfg0.N = 10 from N_0)
  funext j
  obtain ⟨p, q, rfl⟩ : ∃ (p : Fin 5000) (q : Fin 128), j = ix2 p q := ⟨j 0, j 1, eq_ix2 j⟩
  rw [View.read_apply]
  have hemb : ((cfg0.win 3).blk t).view.emb (ix2 p q) = (ix2 (⟨t.val * 5000 + p.val, by have := p.isLt; omega⟩ : Fin 50000) q : S50000x128.Idx) := by
    funext a
    apply Fin.ext
    match a with
    | ⟨0, _⟩ => show win0_3.index t 0 * 5000 + 1 * p.val = t.val * 5000 + p.val; rw [e30]; omega
    | ⟨1, _⟩ => show win0_3.index t 1 * 128 + 1 * q.val = q.val; rw [e31]; omega
  rw [hemb]
  exact block_affine V c t p q _ rfl

/-- An index of the result is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- The result array after the region: the affine layer of the three arrays as the region found them. -/
theorem final (c : Dev nD) : (dat0 V c).arrAt 3 cfg0.N = Affine.affine (xin V c) (wgt V c) (bias V c) :=
  (dat0 V c).arrAt_eq_of_cover 3 (Affine.affine (xin V c) (wgt V c) (bias V c)) (fun t _ => flushed_eq V c t) fun i => by
    have hi0 : (i 0).val < 50000 := idx2_lt0 i
    have hi1 : (i 1).val < 128 := idx2_lt1 i
    have hN : cfg0.N = 10 := N_0
    refine ⟨⟨(i 0).val / 5000, by rw [hN]; omega⟩, flush0_3 _, ?_⟩
    obtain ⟨-, -, -, -, -, -, e30, e31⟩ := idx_facts ⟨(i 0).val / 5000, by rw [hN]; omega⟩
    rw [mem_blk]
    intro a
    match a with
    | ⟨0, _⟩ => show win0_3.index _ (0 : Fin 2) * 5000 ≤ (i 0).val ∧ (i 0).val < win0_3.index _ (0 : Fin 2) * 5000 + 5000; rw [e30]; show (i 0).val / 5000 * 5000 ≤ (i 0).val ∧ (i 0).val < (i 0).val / 5000 * 5000 + 5000; omega
    | ⟨1, _⟩ => show win0_3.index _ (1 : Fin 2) * 128 ≤ (i 1).val ∧ (i 1).val < win0_3.index _ (1 : Fin 2) * 128 + 128; rw [e31]; omega

end Cert.KernelIdeal.Region0

end
-- ==== Proof.Region1.lean ====
/-
  Region 1 of the idealized kernel, read as a value: whatever the buffers hold when the region is entered, the array
  the region writes ends holding the affine layer X · W + b of the three arrays it reads.

  The grid has ten points; point t stages rows 5000 t … 5000 t + 4999 of X, all of W and the one-row table b, and writes
  back the same rows of the result. The body's stored value is the matrix unit's product of the narrowed operands into a
  zero accumulator plus the bias row repeated: at exact values the affine layer of the staged blocks. Row p of block t
  is row 5000 t + p of X, so what point t writes back is rows 5000 t … of the layer of the whole arrays; the ten blocks
  tile the result (row r lies in block r / 5000).
-/
import proofs.«178420_j75557064671960_1_alg».proof.Proof.KernelIdealFrameP
import proofs.«178420_j75557064671960_1_alg».proof.Proof.Affine
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them. -/
abbrev xin (c : Dev nD) : FVec Ideal S50000x128 .f32 := V c main_v35
abbrev wgt (c : Dev nD) : FVec Ideal S128x128 .f32 := V c main_arg5
abbrev bias (c : Dev nD) : FVec Ideal S1x128 .f32 := V c main_v36

/-- The stored value is the affine layer of the three loaded blocks. -/
theorem pay_eq (x0 : Vec Ideal S5000x128 .f32) (x1 : Vec Ideal S128x128 .f32) (x2 : Vec Ideal S1x128 .f32) :
    k1_pay1 x0 x1 x2 = Affine.affine x0 x1 x2 :=
  Affine.of_matmul dot_S5000x128_S128x128_S5000x128_1_0_0_1_n_n rfl rfl rfl rfl rfl rfl none x0 x1 x2 _ _ _ _

/-- The printed index maps over the grid: X's and the result's block index is (t, 0), W's and b's is (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of X's block at point t is row 5000 t + p of X. -/
theorem blk_in (c : Dev nD) (t : Fin cfg1.N) (x : S5000x128.Idx) (k : S50000x128.Idx)
    (hk0 : (k 0).val = t.val * 5000 + (x 0).val) (hk1 : (k 1).val = (x 1).val) :
    (iblk1 V c 0 t : Vec Ideal S5000x128 .f32) x = xin V c k := by
  obtain ⟨e00, e01, -⟩ := idx_facts t
  unfold iblk1
  rw [View.read_apply]
  show V c main_v35 _ = V c main_v35 _
  congr 1
  funext a
  apply Fin.ext
  match a with
  | ⟨0, _⟩ => show win1_0.index t 0 * 5000 + 1 * (x 0).val = (k 0).val; rw [e00, hk0]; omega
  | ⟨1, _⟩ => show win1_0.index t 1 * 128 + 1 * (x 1).val = (k 1).val; rw [e01, hk1]; omega

/-- W's block at every point is W. -/
theorem blk_w (c : Dev nD) (t : Fin cfg1.N) (x : S128x128.Idx) :
    (iblk1 V c 1 t : Vec Ideal S128x128 .f32) x = wgt V c x := by
  obtain ⟨-, -, e10, e11, -⟩ := idx_facts t
  unfold iblk1
  rw [View.read_apply]
  show V c main_arg5 _ = V c main_arg5 _
  congr 1
  funext a
  apply Fin.ext
  match a with
  | ⟨0, _⟩ => show win1_1.index t 0 * 128 + 1 * (x 0).val = (x 0).val; rw [e10]; omega
  | ⟨1, _⟩ => show win1_1.index t 1 * 128 + 1 * (x 1).val = (x 1).val; rw [e11]; omega

/-- b's block at every point is b. -/
theorem blk_b (c : Dev nD) (t : Fin cfg1.N) (x : S1x128.Idx) :
    (iblk1 V c 2 t : Vec Ideal S1x128 .f32) x = bias V c x := by
  obtain ⟨-, -, -, -, e20, e21, -⟩ := idx_facts t
  unfold iblk1
  rw [View.read_apply]
  show V c main_v36 _ = V c main_v36 _
  congr 1
  funext a
  apply Fin.ext
  match a with
  | ⟨0, _⟩ => show win1_2.index t 0 * 1 + 1 * (x 0).val = (x 0).val; rw [e20]; omega
  | ⟨1, _⟩ => show win1_2.index t 1 * 128 + 1 * (x 1).val = (x 1).val; rw [e21]; omega

/-- The layer of the blocks at point t, at entry (p, q), is the layer of the whole arrays at entry (5000 t + p, q). -/
theorem block_affine (c : Dev nD) (t : Fin cfg1.N) (p : Fin 5000) (q : Fin 128) (P : Fin 50000) (hP : P.val = t.val * 5000 + p.val) :
    Affine.affine (iblk1 V c 0 t : Vec Ideal S5000x128 .f32) (iblk1 V c 1 t : Vec Ideal S128x128 .f32) (iblk1 V c 2 t : Vec Ideal S1x128 .f32) (ix2 p q)
      = Affine.affine (xin V c) (wgt V c) (bias V c) (ix2 P q) := by
  rw [Affine.affine_apply, Affine.affine_apply]
  congr 1
  · refine Finset.sum_congr rfl fun k _ => ?_
    rw [blk_in V c t (ix2 p k) (ix2 P k) hP rfl, blk_w V c t (ix2 k q)]
  · rw [blk_b V c t (ix2 (0 : Fin 1) q)]

/-- What point t writes back is block t of the layer of the whole arrays. -/
theorem flushed_eq (c : Dev nD) (t : Fin cfg1.N) :
    (dat1 V c).flushed 3 t = ((cfg1.win 3).blk t).view.read (Elt Ideal) (Affine.affine (xin V c) (wgt V c) (bias V c)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  rw [pay_eq]
  obtain ⟨-, -, -, -, -, -, e30, e31⟩ := idx_facts t
  have ht : t.val < 10 := lt_of_lt_of_eq t.isLt (show cfg1.N = 10 from N_1)
  funext j
  obtain ⟨p, q, rfl⟩ : ∃ (p : Fin 5000) (q : Fin 128), j = ix2 p q := ⟨j 0, j 1, eq_ix2 j⟩
  rw [View.read_apply]
  have hemb : ((cfg1.win 3).blk t).view.emb (ix2 p q) = (ix2 (⟨t.val * 5000 + p.val, by have := p.isLt; omega⟩ : Fin 50000) q : S50000x128.Idx) := by
    funext a
    apply Fin.ext
    match a with
    | ⟨0, _⟩ => show win1_3.index t 0 * 5000 + 1 * p.val = t.val * 5000 + p.val; rw [e30]; omega
    | ⟨1, _⟩ => show win1_3.index t 1 * 128 + 1 * q.val = q.val; rw [e31]; omega
  rw [hemb]
  exact block_affine V c t p q _ rfl

/-- An index of the result is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v37).slice (win1_3.rect t)).set ↔ _
  rw [View.set_slice_whole, Rect.mem_set_unit]
  exact Iff.rfl

/-- The result array after the region: the affine layer of the three arrays as the region found them. -/
theorem final (c : Dev nD) : (dat1 V c).arrAt 3 cfg1.N = Affine.affine (xin V c) (wgt V c) (bias V c) :=
  (dat1 V c).arrAt_eq_of_cover 3 (Affine.affine (xin V c) (wgt V c) (bias V c)) (fun t _ => flushed_eq V c t) fun i => by
    have hi0 : (i 0).val < 50000 := idx2_lt0 i
    have hi1 : (i 1).val < 128 := idx2_lt1 i
    have hN : cfg1.N = 10 := N_1
    refine ⟨⟨(i 0).val / 5000, by rw [hN]; omega⟩, flush1_3 _, ?_⟩
    obtain ⟨-, -, -, -, -, -, e30, e31⟩ := idx_facts ⟨(i 0).val / 5000, by rw [hN]; omega⟩
    rw [mem_blk]
    intro a
    match a with
    | ⟨0, _⟩ => show win1_3.index _ (0 : Fin 2) * 5000 ≤ (i 0).val ∧ (i 0).val < win1_3.index _ (0 : Fin 2) * 5000 + 5000; rw [e30]; show (i 0).val / 5000 * 5000 ≤ (i 0).val ∧ (i 0).val < (i 0).val / 5000 * 5000 + 5000; omega
    | ⟨1, _⟩ => show win1_3.index _ (1 : Fin 2) * 128 ≤ (i 1).val ∧ (i 1).val < win1_3.index _ (1 : Fin 2) * 128 + 128; rw [e31]; omega

end Cert.KernelIdeal.Region1

end
-- ==== Proof.Region2.lean ====
/-
  Region 2 of the idealized kernel, read as a value: whatever the buffers hold when the region is entered, the array
  the region writes ends holding the affine layer X · W + b of the three arrays it reads.

  The grid has ten points; point t stages rows 5000 t … 5000 t + 4999 of X, all of W and the one-row table b, and writes
  back the same rows of the result. The body's stored value is the matrix unit's product of the narrowed operands into a
  zero accumulator plus the bias row repeated: at exact values the affine layer of the staged blocks. Row p of block t
  is row 5000 t + p of X, so what point t writes back is rows 5000 t … of the layer of the whole arrays; the ten blocks
  tile the result (row r lies in block r / 5000).
-/
import proofs.«178420_j75557064671960_1_alg».proof.Proof.KernelIdealFrameP
import proofs.«178420_j75557064671960_1_alg».proof.Proof.Affine
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.GenP

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them. -/
abbrev xin (c : Dev nD) : FVec Ideal S50000x128 .f32 := V c main_v54
abbrev wgt (c : Dev nD) : FVec Ideal S128x64 .f32 := V c main_arg7
abbrev bias (c : Dev nD) : FVec Ideal S1x64 .f32 := V c main_v55

/-- The stored value is the affine layer of the three loaded blocks. -/
theorem pay_eq (x0 : Vec Ideal S5000x128 .f32) (x1 : Vec Ideal S128x64 .f32) (x2 : Vec Ideal S1x64 .f32) :
    k2_pay1 x0 x1 x2 = Affine.affine x0 x1 x2 :=
  Affine.of_matmul dot_S5000x128_S128x64_S5000x64_1_0_0_1_n_n rfl rfl rfl rfl rfl rfl none x0 x1 x2 _ _ _ _

/-- The printed index maps over the grid: X's and the result's block index is (t, 0), W's and b's is (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of X's block at point t is row 5000 t + p of X. -/
theorem blk_in (c : Dev nD) (t : Fin cfg2.N) (x : S5000x128.Idx) (k : S50000x128.Idx)
    (hk0 : (k 0).val = t.val * 5000 + (x 0).val) (hk1 : (k 1).val = (x 1).val) :
    (iblk2 V c 0 t : Vec Ideal S5000x128 .f32) x = xin V c k := by
  obtain ⟨e00, e01, -⟩ := idx_facts t
  unfold iblk2
  rw [View.read_apply]
  show V c main_v54 _ = V c main_v54 _
  congr 1
  funext a
  apply Fin.ext
  match a with
  | ⟨0, _⟩ => show win2_0.index t 0 * 5000 + 1 * (x 0).val = (k 0).val; rw [e00, hk0]; omega
  | ⟨1, _⟩ => show win2_0.index t 1 * 128 + 1 * (x 1).val = (k 1).val; rw [e01, hk1]; omega

/-- W's block at every point is W. -/
theorem blk_w (c : Dev nD) (t : Fin cfg2.N) (x : S128x64.Idx) :
    (iblk2 V c 1 t : Vec Ideal S128x64 .f32) x = wgt V c x := by
  obtain ⟨-, -, e10, e11, -⟩ := idx_facts t
  unfold iblk2
  rw [View.read_apply]
  show V c main_arg7 _ = V c main_arg7 _
  congr 1
  funext a
  apply Fin.ext
  match a with
  | ⟨0, _⟩ => show win2_1.index t 0 * 128 + 1 * (x 0).val = (x 0).val; rw [e10]; omega
  | ⟨1, _⟩ => show win2_1.index t 1 * 64 + 1 * (x 1).val = (x 1).val; rw [e11]; omega

/-- b's block at every point is b. -/
theorem blk_b (c : Dev nD) (t : Fin cfg2.N) (x : S1x64.Idx) :
    (iblk2 V c 2 t : Vec Ideal S1x64 .f32) x = bias V c x := by
  obtain ⟨-, -, -, -, e20, e21, -⟩ := idx_facts t
  unfold iblk2
  rw [View.read_apply]
  show V c main_v55 _ = V c main_v55 _
  congr 1
  funext a
  apply Fin.ext
  match a with
  | ⟨0, _⟩ => show win2_2.index t 0 * 1 + 1 * (x 0).val = (x 0).val; rw [e20]; omega
  | ⟨1, _⟩ => show win2_2.index t 1 * 64 + 1 * (x 1).val = (x 1).val; rw [e21]; omega

/-- The layer of the blocks at point t, at entry (p, q), is the layer of the whole arrays at entry (5000 t + p, q). -/
theorem block_affine (c : Dev nD) (t : Fin cfg2.N) (p : Fin 5000) (q : Fin 64) (P : Fin 50000) (hP : P.val = t.val * 5000 + p.val) :
    Affine.affine (iblk2 V c 0 t : Vec Ideal S5000x128 .f32) (iblk2 V c 1 t : Vec Ideal S128x64 .f32) (iblk2 V c 2 t : Vec Ideal S1x64 .f32) (ix2 p q)
      = Affine.affine (xin V c) (wgt V c) (bias V c) (ix2 P q) := by
  rw [Affine.affine_apply, Affine.affine_apply]
  congr 1
  · refine Finset.sum_congr rfl fun k _ => ?_
    rw [blk_in V c t (ix2 p k) (ix2 P k) hP rfl, blk_w V c t (ix2 k q)]
  · rw [blk_b V c t (ix2 (0 : Fin 1) q)]

/-- What point t writes back is block t of the layer of the whole arrays. -/
theorem flushed_eq (c : Dev nD) (t : Fin cfg2.N) :
    (dat2 V c).flushed 3 t = ((cfg2.win 3).blk t).view.read (Elt Ideal) (Affine.affine (xin V c) (wgt V c) (bias V c)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x64) hz, View.ld_unit_zero (S := S1x64) hz]
  rw [pay_eq]
  obtain ⟨-, -, -, -, -, -, e30, e31⟩ := idx_facts t
  have ht : t.val < 10 := lt_of_lt_of_eq t.isLt (show cfg2.N = 10 from N_2)
  funext j
  obtain ⟨p, q, rfl⟩ : ∃ (p : Fin 5000) (q : Fin 64), j = ix2 p q := ⟨j 0, j 1, eq_ix2 j⟩
  rw [View.read_apply]
  have hemb : ((cfg2.win 3).blk t).view.emb (ix2 p q) = (ix2 (⟨t.val * 5000 + p.val, by have := p.isLt; omega⟩ : Fin 50000) q : S50000x64.Idx) := by
    funext a
    apply Fin.ext
    match a with
    | ⟨0, _⟩ => show win2_3.index t 0 * 5000 + 1 * p.val = t.val * 5000 + p.val; rw [e30]; omega
    | ⟨1, _⟩ => show win2_3.index t 1 * 64 + 1 * q.val = q.val; rw [e31]; omega
  rw [hemb]
  exact block_affine V c t p q _ rfl

/-- An index of the result is in point t's block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v56).slice (win2_3.rect t)).set ↔ _
  rw [View.set_slice_whole, Rect.mem_set_unit]
  exact Iff.rfl

/-- The result array after the region: the affine layer of the three arrays as the region found them. -/
theorem final (c : Dev nD) : (dat2 V c).arrAt 3 cfg2.N = Affine.affine (xin V c) (wgt V c) (bias V c) :=
  (dat2 V c).arrAt_eq_of_cover 3 (Affine.affine (xin V c) (wgt V c) (bias V c)) (fun t _ => flushed_eq V c t) fun i => by
    have hi0 : (i 0).val < 50000 := idx2_lt0 i
    have hi1 : (i 1).val < 64 := idx2_lt1 i
    have hN : cfg2.N = 10 := N_2
    refine ⟨⟨(i 0).val / 5000, by rw [hN]; omega⟩, flush2_3 _, ?_⟩
    obtain ⟨-, -, -, -, -, -, e30, e31⟩ := idx_facts ⟨(i 0).val / 5000, by rw [hN]; omega⟩
    rw [mem_blk]
    intro a
    match a with
    | ⟨0, _⟩ => show win2_3.index _ (0 : Fin 2) * 5000 ≤ (i 0).val ∧ (i 0).val < win2_3.index _ (0 : Fin 2) * 5000 + 5000; rw [e30]; show (i 0).val / 5000 * 5000 ≤ (i 0).val ∧ (i 0).val < (i 0).val / 5000 * 5000 + 5000; omega
    | ⟨1, _⟩ => show win2_3.index _ (1 : Fin 2) * 64 ≤ (i 1).val ∧ (i 1).val < win2_3.index _ (1 : Fin 2) * 64 + 64; rw [e31]; omega

end Cert.KernelIdeal.Region2

end
-- ==== Proof.Spmm.lean ====
/-
  A sparse-matrix product written with a gather and a scatter-add, and three affine layers stacked on it.

  The sparse matrix is a list of E = 800000 weighted edges: a 2 × E table of node numbers (row 0 the destination, row 1
  the source of each edge) and a vector of E weights. Applied to an n × D table X (n = 50000 nodes, D = 128 features) it
  gathers the source node's row for every edge (a negative source number first moved up by n), scales the row by the
  edge's weight, and adds the scaled rows into the destination nodes' rows of a zero table. The definition below is that
  sequence of operations as the host spells it, one function of the three arrays; nothing here looks inside the gather
  or the scatter-add, and no property of them is used: two programs that apply this same function to equal arrays get
  equal tables.

  The whole network: sparse product, affine layer, three times over.
-/
import Idealize.ShloMosaic.PureOps
import proofs.«178420_j75557064671960_1_alg».proof.Proof.Affine

noncomputable section

namespace Cert.Spmm

open Idealize.ShloMosaic

variable {F : FTy → Type} [FloatOps F]

abbrev SEdges : Shape := ⟨2, ![2, 800000]⟩
abbrev SRow : Shape := ⟨2, ![1, 800000]⟩
abbrev SE : Shape := ⟨1, ![800000]⟩
abbrev SEc : Shape := ⟨2, ![800000, 1]⟩
abbrev SED : Shape := ⟨2, ![800000, 128]⟩
abbrev SND : Shape := ⟨2, ![50000, 128]⟩
abbrev S0 : Shape := ⟨0, ![]⟩

/-- The shape relations and the dimension numbers the operations of the sparse product cite. -/
structure Dims where
  g : GatherDims SND SEc SED
  sc : ScatterDims SND SEc SED
  sl0 : SEdges.Slices ![0, 0] SRow
  sl1 : SEdges.Slices ![1, 0] SRow
  cast : SRow.ShapeCasts SE
  b0E : S0.BroadcastsInDim SE (![] : Fin 0 → Fin SE.rank)
  bEc : SE.BroadcastsInDim SEc (![0] : Fin 1 → Fin SEc.rank)
  bED : SEc.BroadcastsInDim SED (![0, 1] : Fin 2 → Fin SED.rank)
  b0N : S0.BroadcastsInDim SND (![] : Fin 0 → Fin SND.rank)

/-- The source node of every edge, a negative number moved up by the number of nodes. -/
def sources (δ : Dims) (idx : IVec SEdges 32) : IVec SE 32 :=
  select (cmpi .slt (shapeCast _ (extractStridedSlice SRow ![1, 0] idx δ.sl1) δ.cast) (broadcastInDim SE ![] δ.b0E (constantI S0 32 0#32)))
    (addi (shapeCast _ (extractStridedSlice SRow ![1, 0] idx δ.sl1) δ.cast) (broadcastInDim SE ![] δ.b0E (constantI S0 32 50000#32)))
    (shapeCast _ (extractStridedSlice SRow ![1, 0] idx δ.sl1) δ.cast)

/-- The sparse product: gather the source rows, scale by the weights, add into the destination rows of a zero table. -/
def spmm (δ : Dims) (idx : IVec SEdges 32) (vals : FVec F SE .f32) (X : FVec F SND .f32) : FVec F SND .f32 :=
  Host.scatterAdd δ.sc (broadcastInDim SND ![] δ.b0N (constant S0 .f32 0x00000000#32))
    (broadcastInDim SEc ![0] δ.bEc (shapeCast _ (extractStridedSlice SRow ![0, 0] idx δ.sl0) δ.cast))
    (mulf (Host.gather δ.g X (broadcastInDim SEc ![0] δ.bEc (sources δ idx)))
      (broadcastInDim SED ![0, 1] δ.bED (broadcastInDim SEc ![0] δ.bEc vals)))

/-- The three layers: each the sparse product followed by an affine layer, the bias vector laid out as a one-row table. -/
def gcn (δ : Dims)
    (h128 : (⟨1, ![128]⟩ : Shape).ShapeCasts ⟨2, ![1, 128]⟩) (h64 : (⟨1, ![64]⟩ : Shape).ShapeCasts ⟨2, ![1, 64]⟩)
    (x : FVec Ideal SND .f32) (idx : IVec SEdges 32) (vals : FVec Ideal SE .f32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 64]⟩ .f32) (b3 : FVec Ideal ⟨1, ![64]⟩ .f32) : FVec Ideal ⟨2, ![50000, 64]⟩ .f32 :=
  Affine.affine (spmm δ idx vals
    (Affine.affine (spmm δ idx vals
      (Affine.affine (spmm δ idx vals x) W1 (shapeCast ⟨2, ![1, 128]⟩ b1 h128))) W2 (shapeCast ⟨2, ![1, 128]⟩ b2 h128))) W3 (shapeCast ⟨2, ![1, 64]⟩ b3 h64)

end Cert.Spmm

end
-- ==== Proof.HostK.lean ====
/-
  The host operations of the idealized kernel's @main, read as values.

  @main is three times: a stretch of 21 host operations, then a kernel region. Each stretch computes, from whatever the
  buffers hold when it starts, the sparse product of the edge list, the edge weights and the previous table (the same
  gather / scale / scatter-add every time: `Spmm.spmm`), lays the layer's bias vector out as a one-row table, and writes
  no argument array. So after a stretch the three arrays the next region reads are: the sparse product, the weight
  matrix untouched, and the bias as a one-row table.
-/
import proofs.«178420_j75557064671960_1_alg».proof.Proof.KernelIdealFrameP
import proofs.«178420_j75557064671960_1_alg».proof.Proof.Spmm
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostK

open Cert.KernelIdeal Cert.KernelIdeal.Gen Cert.KernelIdeal.GenP

/-- The shape relations and dimension numbers this program's sparse products cite. -/
def δ : Spmm.Dims where
  g := gather_S50000x128_S800000x1_S800000x128_1_0_n_n_0_1_1128
  sc := scatter_S50000x128_S800000x1_S800000x128_1_0_0_1
  sl0 := slices_S2x800000_S1x800000_0_0
  sl1 := slices_S2x800000_S1x800000_1_0
  cast := shapeCasts_S1x800000_S800000
  b0E := bcast_S_S800000
  bEc := bcast_S800000_S800000x1_0
  bED := bcast_S800000x1_S800000x128_0_1
  b0N := bcast_S_S50000x128

variable (W : Valuation τ sig (Elt Ideal))

/-! ## The first stretch -/

theorem stretch0_x : (after hostOps0 W (Proc.devRef .tc main_v16) : FVec Ideal S50000x128 .f32)
    = Spmm.spmm (F := Ideal) δ (W (Proc.devRef .tc main_arg1)) (W (Proc.devRef .tc main_arg2)) (W (Proc.devRef .tc main_arg0)) := by
  after_results_simp
  rfl

theorem stretch0_b : (after hostOps0 W (Proc.devRef .tc main_v17) : FVec Ideal S1x128 .f32)
    = shapeCast S1x128 (W (Proc.devRef .tc main_arg4) : FVec Ideal S128 .f32) shapeCasts_S128_S1x128 := by
  after_results_simp
  rfl

theorem stretch0_arg1 : after hostOps0 W (Proc.devRef .tc main_arg1) = W (Proc.devRef .tc main_arg1) := by after_results_simp
theorem stretch0_arg2 : after hostOps0 W (Proc.devRef .tc main_arg2) = W (Proc.devRef .tc main_arg2) := by after_results_simp
theorem stretch0_arg3 : after hostOps0 W (Proc.devRef .tc main_arg3) = W (Proc.devRef .tc main_arg3) := by after_results_simp
theorem stretch0_arg5 : after hostOps0 W (Proc.devRef .tc main_arg5) = W (Proc.devRef .tc main_arg5) := by after_results_simp
theorem stretch0_arg6 : after hostOps0 W (Proc.devRef .tc main_arg6) = W (Proc.devRef .tc main_arg6) := by after_results_simp
theorem stretch0_arg7 : after hostOps0 W (Proc.devRef .tc main_arg7) = W (Proc.devRef .tc main_arg7) := by after_results_simp
theorem stretch0_arg8 : after hostOps0 W (Proc.devRef .tc main_arg8) = W (Proc.devRef .tc main_arg8) := by after_results_simp

/-! ## The second stretch -/

theorem stretch1_x : (after hostOps1 W (Proc.devRef .tc main_v35) : FVec Ideal S50000x128 .f32)
    = Spmm.spmm (F := Ideal) δ (W (Proc.devRef .tc main_arg1)) (W (Proc.devRef .tc main_arg2)) (W (Proc.devRef .tc main_v18)) := by
  after_results_simp
  rfl

theorem stretch1_b : (after hostOps1 W (Proc.devRef .tc main_v36) : FVec Ideal S1x128 .f32)
    = shapeCast S1x128 (W (Proc.devRef .tc main_arg6) : FVec Ideal S128 .f32) shapeCasts_S128_S1x128 := by
  after_results_simp
  rfl

theorem stretch1_arg1 : after hostOps1 W (Proc.devRef .tc main_arg1) = W (Proc.devRef .tc main_arg1) := by after_results_simp
theorem stretch1_arg2 : after hostOps1 W (Proc.devRef .tc main_arg2) = W (Proc.devRef .tc main_arg2) := by after_results_simp
theorem stretch1_arg5 : after hostOps1 W (Proc.devRef .tc main_arg5) = W (Proc.devRef .tc main_arg5) := by after_results_simp
theorem stretch1_arg7 : after hostOps1 W (Proc.devRef .tc main_arg7) = W (Proc.devRef .tc main_arg7) := by after_results_simp
theorem stretch1_arg8 : after hostOps1 W (Proc.devRef .tc main_arg8) = W (Proc.devRef .tc main_arg8) := by after_results_simp

/-! ## The third stretch -/

theorem stretch2_x : (after hostOps2 W (Proc.devRef .tc main_v54) : FVec Ideal S50000x128 .f32)
    = Spmm.spmm (F := Ideal) δ (W (Proc.devRef .tc main_arg1)) (W (Proc.devRef .tc main_arg2)) (W (Proc.devRef .tc main_v37)) := by
  after_results_simp
  rfl

theorem stretch2_b : (after hostOps2 W (Proc.devRef .tc main_v55) : FVec Ideal S1x64 .f32)
    = shapeCast S1x64 (W (Proc.devRef .tc main_arg8) : FVec Ideal S64 .f32) shapeCasts_S64_S1x64 := by
  after_results_simp
  rfl

theorem stretch2_arg7 : after hostOps2 W (Proc.devRef .tc main_arg7) = W (Proc.devRef .tc main_arg7) := by after_results_simp

end Cert.KernelIdeal.HostK

end
-- ==== Proof.KernelValue.lean ====
/-
  The idealized kernel's result, read as a value.

  Walking @main's six segments from the launch: a host stretch leaves the sparse product of the previous table, the
  layer's weight matrix and its bias as a one-row table (HostK.lean); the region after it leaves their affine layer in
  the array it writes (Region0/1/2.lean) and every other buffer as it was; no segment writes an argument. So the result
  array ends at the three stacked layers `T3` of the nine argument arrays.
-/
import proofs.«178420_j75557064671960_1_alg».proof.Proof.KernelIdealRunP
import proofs.«178420_j75557064671960_1_alg».proof.Proof.Region0
import proofs.«178420_j75557064671960_1_alg».proof.Proof.Region1
import proofs.«178420_j75557064671960_1_alg».proof.Proof.Region2
import proofs.«178420_j75557064671960_1_alg».proof.Proof.HostK

set_option maxRecDepth 16384

noncomputable section

open Idealize.ShloMosaic Idealize.ShloMosaic.TcCoe Idealize.SL.Sem Idealize.ShloMosaic.StableHlo

namespace Cert.KernelIdeal.KValue

open Cert.KernelIdeal Cert.KernelIdeal.Gen Cert.KernelIdeal.GenP

variable (m : (ℓ : Loc nD τ sig) → Buf (Elt Ideal) ℓ) (ρ : Dev nD → PrngReg)

/-- The table after the first layer, after the second, and the result: each the affine layer of the sparse product of
    the one before. -/
def T1 (c : Dev nD) : FVec Ideal S50000x128 .f32 :=
  Affine.affine (Spmm.spmm (F := Ideal) HostK.δ (m ((c.tc : Thread nD τ).loc main_arg1)) (m ((c.tc : Thread nD τ).loc main_arg2)) (m ((c.tc : Thread nD τ).loc main_arg0)))
    (m ((c.tc : Thread nD τ).loc main_arg3)) (shapeCast S1x128 (m ((c.tc : Thread nD τ).loc main_arg4) : FVec Ideal S128 .f32) shapeCasts_S128_S1x128)
def T2 (c : Dev nD) : FVec Ideal S50000x128 .f32 :=
  Affine.affine (Spmm.spmm (F := Ideal) HostK.δ (m ((c.tc : Thread nD τ).loc main_arg1)) (m ((c.tc : Thread nD τ).loc main_arg2)) (T1 m c))
    (m ((c.tc : Thread nD τ).loc main_arg5)) (shapeCast S1x128 (m ((c.tc : Thread nD τ).loc main_arg6) : FVec Ideal S128 .f32) shapeCasts_S128_S1x128)
def T3 (c : Dev nD) : FVec Ideal S50000x64 .f32 :=
  Affine.affine (Spmm.spmm (F := Ideal) HostK.δ (m ((c.tc : Thread nD τ).loc main_arg1)) (m ((c.tc : Thread nD τ).loc main_arg2)) (T2 m c))
    (m ((c.tc : Thread nD τ).loc main_arg7)) (shapeCast S1x64 (m ((c.tc : Thread nD τ).loc main_arg8) : FVec Ideal S64 .f32) shapeCasts_S64_S1x64)

/-- The result is the three stacked layers of the argument arrays. -/
theorem T3_eq (c : Dev nD) : T3 m c = Spmm.gcn HostK.δ shapeCasts_S128_S1x128 shapeCasts_S64_S1x64
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8)) := rfl

/-! ## After the first region -/

theorem W2_v18 (c : Dev nD) : (W2 m ρ c (Proc.devRef .tc main_v18) : FVec Ideal S50000x128 .f32) = T1 m c :=
  (W2_arr m ρ c 3).trans <| (Region0.final (V1 m ρ) c).trans <| by
    show Affine.affine (after hostOps0 (W0 m ρ c) (Proc.devRef .tc main_v16) : FVec Ideal S50000x128 .f32)
      (after hostOps0 (W0 m ρ c) (Proc.devRef .tc main_arg3) : FVec Ideal S128x128 .f32)
      (after hostOps0 (W0 m ρ c) (Proc.devRef .tc main_v17) : FVec Ideal S1x128 .f32) = _
    rw [HostK.stretch0_x, HostK.stretch0_arg3, HostK.stretch0_b]
    rfl

theorem W2_arg1 (c : Dev nD) : W2 m ρ c (Proc.devRef .tc main_arg1) = m ((c.tc : Thread nD τ).loc main_arg1) :=
  (W2_of_ne m ρ c main_arg1 (by decide)).trans (HostK.stretch0_arg1 (W0 m ρ c))
theorem W2_arg2 (c : Dev nD) : W2 m ρ c (Proc.devRef .tc main_arg2) = m ((c.tc : Thread nD τ).loc main_arg2) :=
  (W2_of_ne m ρ c main_arg2 (by decide)).trans (HostK.stretch0_arg2 (W0 m ρ c))
theorem W2_arg5 (c : Dev nD) : W2 m ρ c (Proc.devRef .tc main_arg5) = m ((c.tc : Thread nD τ).loc main_arg5) :=
  (W2_of_ne m ρ c main_arg5 (by decide)).trans (HostK.stretch0_arg5 (W0 m ρ c))
theorem W2_arg6 (c : Dev nD) : W2 m ρ c (Proc.devRef .tc main_arg6) = m ((c.tc : Thread nD τ).loc main_arg6) :=
  (W2_of_ne m ρ c main_arg6 (by decide)).trans (HostK.stretch0_arg6 (W0 m ρ c))
theorem W2_arg7 (c : Dev nD) : W2 m ρ c (Proc.devRef .tc main_arg7) = m ((c.tc : Thread nD τ).loc main_arg7) :=
  (W2_of_ne m ρ c main_arg7 (by decide)).trans (HostK.stretch0_arg7 (W0 m ρ c))
theorem W2_arg8 (c : Dev nD) : W2 m ρ c (Proc.devRef .tc main_arg8) = m ((c.tc : Thread nD τ).loc main_arg8) :=
  (W2_of_ne m ρ c main_arg8 (by decide)).trans (HostK.stretch0_arg8 (W0 m ρ c))

/-! ## After the second region -/

theorem W4_v37 (c : Dev nD) : (W4 m ρ c (Proc.devRef .tc main_v37) : FVec Ideal S50000x128 .f32) = T2 m c :=
  (W4_arr m ρ c 3).trans <| (Region1.final (V3 m ρ) c).trans <| by
    show Affine.affine (after hostOps1 (W2 m ρ c) (Proc.devRef .tc main_v35) : FVec Ideal S50000x128 .f32)
      (after hostOps1 (W2 m ρ c) (Proc.devRef .tc main_arg5) : FVec Ideal S128x128 .f32)
      (after hostOps1 (W2 m ρ c) (Proc.devRef .tc main_v36) : FVec Ideal S1x128 .f32) = _
    rw [HostK.stretch1_x, HostK.stretch1_arg5, HostK.stretch1_b, W2_arg1, W2_arg2, W2_arg5, W2_arg6, W2_v18]
    rfl

theorem W4_arg1 (c : Dev nD) : W4 m ρ c (Proc.devRef .tc main_arg1) = m ((c.tc : Thread nD τ).loc main_arg1) :=
  (W4_of_ne m ρ c main_arg1 (by decide)).trans ((HostK.stretch1_arg1 (W2 m ρ c)).trans (W2_arg1 m ρ c))
theorem W4_arg2 (c : Dev nD) : W4 m ρ c (Proc.devRef .tc main_arg2) = m ((c.tc : Thread nD τ).loc main_arg2) :=
  (W4_of_ne m ρ c main_arg2 (by decide)).trans ((HostK.stretch1_arg2 (W2 m ρ c)).trans (W2_arg2 m ρ c))
theorem W4_arg7 (c : Dev nD) : W4 m ρ c (Proc.devRef .tc main_arg7) = m ((c.tc : Thread nD τ).loc main_arg7) :=
  (W4_of_ne m ρ c main_arg7 (by decide)).trans ((HostK.stretch1_arg7 (W2 m ρ c)).trans (W2_arg7 m ρ c))
theorem W4_arg8 (c : Dev nD) : W4 m ρ c (Proc.devRef .tc main_arg8) = m ((c.tc : Thread nD τ).loc main_arg8) :=
  (W4_of_ne m ρ c main_arg8 (by decide)).trans ((HostK.stretch1_arg8 (W2 m ρ c)).trans (W2_arg8 m ρ c))

/-! ## After the third region -/

theorem W6_v56 (c : Dev nD) : (W6 m ρ c (Proc.devRef .tc main_v56) : FVec Ideal S50000x64 .f32) = T3 m c :=
  (W6_arr m ρ c 3).trans <| (Region2.final (V5 m ρ) c).trans <| by
    show Affine.affine (after hostOps2 (W4 m ρ c) (Proc.devRef .tc main_v54) : FVec Ideal S50000x128 .f32)
      (after hostOps2 (W4 m ρ c) (Proc.devRef .tc main_arg7) : FVec Ideal S128x64 .f32)
      (after hostOps2 (W4 m ρ c) (Proc.devRef .tc main_v55) : FVec Ideal S1x64 .f32) = _
    rw [HostK.stretch2_x, HostK.stretch2_arg7, HostK.stretch2_b, W4_arg1, W4_arg2, W4_arg7, W4_arg8, W4_v37]
    rfl

/-! ## The run, read -/

/-- Every weakly fair execution of @main terminates with the result array at the three stacked layers of the argument
    arrays and the arguments unchanged. -/
theorem run : θ_run defs (onTc (τ := τ) (main (F := Ideal))) ⟨m, fun _ => 0, ρ⟩ fun r => ∀ c : Dev nD,
      r.2.mem ((c.tc : Thread nD τ).loc main_v56) = T3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (W6_v56 m ρ c), (h c).2⟩) (RunP.run_main m ρ)

end Cert.KernelIdeal.KValue

end
-- ==== Proof.RefValue.lean ====
/-
  The reference's result, read as a value.

  The reference's @main is straight-line host code: three times the sparse product of the edge list, the edge weights
  and the previous table, then the general dot product with the layer's weight matrix plus the bias vector laid out as
  a one-row table and repeated down the rows. Its run's composed term is therefore the three stacked layers
  `Spmm.gcn` of the nine argument arrays: each "dot product plus repeated bias" is the affine layer (Affine.lean), and
  the sparse products are the same function on both sides of the certificate, never opened.
-/
import proofs.«178420_j75557064671960_1_alg».proof.Proof.Gen.ReferenceIdeal.Run
import proofs.«178420_j75557064671960_1_alg».proof.Proof.Spmm

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Value

/-- The shape relations and dimension numbers this program's sparse products cite. -/
def δ : Spmm.Dims where
  g := gather_S50000x128_S800000x1_S800000x128_1_0_n_n_0_1_1128
  sc := scatter_S50000x128_S800000x1_S800000x128_1_0_0_1
  sl0 := slices_S2x800000_S1x800000_0_0
  sl1 := slices_S2x800000_S1x800000_1_0
  cast := shapeCasts_S1x800000_S800000
  b0E := bcast_S_S800000
  bEc := bcast_S800000_S800000x1_0
  bED := bcast_S800000x1_S800000x128_0_1
  b0N := bcast_S_S50000x128

theorem h128 : (⟨1, ![128]⟩ : Shape).ShapeCasts ⟨2, ![1, 128]⟩ := by decide
theorem h64 : (⟨1, ![64]⟩ : Shape).ShapeCasts ⟨2, ![1, 64]⟩ := by decide

variable (m : (ℓ : Loc nD τ sig) → Buf (Elt Ideal) ℓ)

/-- The run's composed term is the three stacked layers of the argument arrays. -/
theorem result_eq (c : Dev nD) :
    res_main_v62 (F := Ideal) m c = Spmm.gcn δ h128 h64
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8)) := by
  generalize hx : m ((c.tc : Thread nD τ).loc main_arg0) = x
  generalize hidx : m ((c.tc : Thread nD τ).loc main_arg1) = idx
  generalize hvals : m ((c.tc : Thread nD τ).loc main_arg2) = vals
  generalize hW1 : m ((c.tc : Thread nD τ).loc main_arg3) = W1
  generalize hb1 : m ((c.tc : Thread nD τ).loc main_arg4) = b1
  generalize hW2 : m ((c.tc : Thread nD τ).loc main_arg5) = W2
  generalize hb2 : m ((c.tc : Thread nD τ).loc main_arg6) = b2
  generalize hW3 : m ((c.tc : Thread nD τ).loc main_arg7) = W3
  generalize hb3 : m ((c.tc : Thread nD τ).loc main_arg8) = b3
  have e1 := Affine.of_dotGeneral dot_S50000x128_S128x128_S50000x128_1_0_0_1_n_n rfl rfl rfl rfl rfl rfl none
    (Spmm.spmm (F := Ideal) δ idx vals x) W1 b1 bcast_S128_S1x128_1 bcast_S1x128_S50000x128_0_1 h128
  have e2 := Affine.of_dotGeneral dot_S50000x128_S128x128_S50000x128_1_0_0_1_n_n rfl rfl rfl rfl rfl rfl none
    (Spmm.spmm (F := Ideal) δ idx vals (Affine.affine (Spmm.spmm (F := Ideal) δ idx vals x) W1 (shapeCast ⟨2, ![1, 128]⟩ b1 h128))) W2 b2 bcast_S128_S1x128_1 bcast_S1x128_S50000x128_0_1 h128
  have e3 := Affine.of_dotGeneral dot_S50000x128_S128x64_S50000x64_1_0_0_1_n_n rfl rfl rfl rfl rfl rfl none
    (Spmm.spmm (F := Ideal) δ idx vals (Affine.affine (Spmm.spmm (F := Ideal) δ idx vals (Affine.affine (Spmm.spmm (F := Ideal) δ idx vals x) W1 (shapeCast ⟨2, ![1, 128]⟩ b1 h128))) W2 (shapeCast ⟨2, ![1, 128]⟩ b2 h128))) W3 b3 bcast_S64_S1x64_1 bcast_S1x64_S50000x64_0_1 h64
  unfold Spmm.gcn
  rw [← e3, ← e2, ← e1]
  subst hx hidx hvals hW1 hb1 hW2 hb2 hW3 hb3
  unfold res_main_v62
  rfl

end Cert.ReferenceIdeal.RefValue

end
-- ==== Proof.lean ====
/-
  A three-layer graph network: three times, a sparse product by a list of weighted edges (gather the source rows, scale,
  scatter-add into the destination rows) followed by an affine layer X · W + b.

  The kernel program does the three sparse products on the host and each affine layer in a pipelined kernel region of ten
  grid points, point t taking rows 5000 t … 5000 t + 4999: the matrix unit's product of the operands narrowed to a
  shorter float format into a zero accumulator, plus the bias row repeated. The reference does everything on the host:
  a general dot product plus the bias vector laid out as a row and repeated.

  Over the extended reals a change of float format is the identity, the product into a zero accumulator is the plain
  sum Σ_k X(p, k) · W(k, q), and so is the host's dot product; the ten row blocks tile the table. So both programs end
  at the same function of the nine argument arrays, `Spmm.gcn`: the sparse products are the same host operations on both
  sides and are carried as one function, never opened. No law that needs finite values is used, so the precondition is
  not opened either.

  Modules: Affine (the layer at an entry, and its two spellings), Spmm (the sparse product and the stacked layers as
  functions), Region0/1/2 (a region's array after its run), HostK (the kernel program's host stretches as values),
  KernelValue (the kernel's run with the result named), RefValue (the reference's composed term as the stacked layers).
-/
import proofs.«178420_j75557064671960_1_alg».proof.Defs
import proofs.«178420_j75557064671960_1_alg».proof.Proof.Gen.Kernel
import proofs.«178420_j75557064671960_1_alg».proof.Proof.Gen.KernelIdeal
import proofs.«178420_j75557064671960_1_alg».proof.Proof.Gen.ReferenceIdeal
import proofs.«178420_j75557064671960_1_alg».proof.Proof.Gen.Pre_finite_inputs
import proofs.«178420_j75557064671960_1_alg».proof.Proof.KernelFrameP
import proofs.«178420_j75557064671960_1_alg».proof.Proof.KernelIdealFrameP
import proofs.«178420_j75557064671960_1_alg».proof.Proof.KernelValue
import proofs.«178420_j75557064671960_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.GenP.frame m ρ

/-- So does the idealized kernel program. -/
theorem frame_ki : Cert.frame_KernelIdeal := fun m ρ _ => Cert.KernelIdeal.GenP.frame m ρ

/-- The reference is host code only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result at the three stacked layers of the (agreeing) argument arrays. -/
theorem algebraic : Cert.algebraic_KernelIdeal_ReferenceIdeal := by
  intro m ρ m' ρ' _ hagree
  refine ⟨fun c => Cert.KernelIdeal.KValue.T3 m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  show Cert.ReferenceIdeal.Value.res_main_v62 m' c = Cert.KernelIdeal.KValue.T3 m c
  rw [Cert.ReferenceIdeal.RefValue.result_eq, Cert.KernelIdeal.KValue.T3_eq, a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
